-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64x1024 : Shape := ⟨3, ![256, 64, 1024]⟩
abbrev S4096x1024 : Shape := ⟨2, ![4096, 1024]⟩
abbrev S4096 : Shape := ⟨1, ![4096]⟩
abbrev S_ : Shape := ⟨0, ![]⟩

class Facts : Prop where
  bcast_S_S256x64x1024 : S_.BroadcastsInDim S256x64x1024 (![] : Fin 0 → Fin S256x64x1024.rank)
  reducesTo_S256x64x1024_S_d0_1_2 : S256x64x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S256x64x1024 .f32) (main_arg1 : FVec F S4096x1024 .f32) (main_arg2 : FVec F S4096 .f32) : IVec S_ 1 :=
  let main_v0 : FVec F S256x64x1024 .f32 := Host.absf main_arg0
  let main_cst : FVec F S_ .f32 := constant S_ .f32 0x7F800000#32
  let main_v1 : FVec F S256x64x1024 .f32 := broadcastInDim S256x64x1024 ![] bcast_S_S256x64x1024 main_cst
  let main_v2 : IVec S256x64x1024 1 := cmpf .olt main_v0 main_v1
  let main_c : IVec S_ 1 := constantI S_ 1 1#1
  let main_v3 : IVec S_ 1 := (fun x v => Host.reduce IntOp.andi x v reducesTo_S256x64x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S256x64x1024 : Shape := ⟨3, ![256, 64, 1024]⟩
abbrev S4096x1024 : Shape := ⟨2, ![4096, 1024]⟩
abbrev S4096 : Shape := ⟨1, ![4096]⟩
abbrev S16384x1024 : Shape := ⟨2, ![16384, 1024]⟩
abbrev S16384x4096 : Shape := ⟨2, ![16384, 4096]⟩
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S256x64x4096 : Shape := ⟨3, ![256, 64, 4096]⟩

abbrev nBuf : Space → Nat
  | .hbm => 8
  | .vmem => 8
  | .smem => 0
  | _ => 0

abbrev bufTy : (tb : Table) → Fin (tcTables nBuf tb) → BufTy
  | .hbm, ⟨0, _⟩ => ⟨S256x64x1024, .f32⟩
  | .hbm, ⟨1, _⟩ => ⟨S4096x1024, .f32⟩
  | .hbm, ⟨2, _⟩ => ⟨S4096, .f32⟩
  | .hbm, ⟨3, _⟩ => ⟨S16384x1024, .f32⟩
  | .hbm, ⟨4, _⟩ => ⟨S16384x1024, .bf16⟩
  | .hbm, ⟨5, _⟩ => ⟨S4096x1024, .bf16⟩
  | .hbm, ⟨6, _⟩ => ⟨S16384x4096, .f32⟩
  | .hbm, ⟨7, _⟩ => ⟨S256x64x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024, .f32⟩
  | .local _ .vmem, ⟨5, _⟩ => ⟨S1024, .f32⟩
  | .local _ .vmem, ⟨6, _⟩ => ⟨S2048x1024, .f32⟩
  | .local _ .vmem, ⟨7, _⟩ => ⟨S2048x1024, .f32⟩
  | _, _ => ⟨S256x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S256x64x1024_S16384x1024 : S256x64x1024.ShapeCasts S16384x1024
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S2048x1024 : S1x1024.Broadcasts S2048x1024
  shapeCasts_S16384x4096_S256x64x4096 : S16384x4096.ShapeCasts S256x64x4096
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .bf16 = 32 ∨ (Rect.block (s := S16384x1024) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .bf16 = 32 ∨ (Rect.block (s := S4096x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S4096.size a
  hwx0_2 : ∀ i : grid0.Coords, EltTy.bits .f32 = 32 ∨ (Rect.block (s := S4096) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S16384x4096.size a
  hwx0_3 : ∀ i : grid0.Coords, EltTy.bits .f32 = 32 ∨ (Rect.block (s := S16384x4096) S2048x1024.size (cc0_transform_3 i) (hinb0_3 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_v1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x64x1024 : Shape := ⟨3, ![256, 64, 1024]⟩
abbrev S4096x1024 : Shape := ⟨2, ![4096, 1024]⟩
abbrev S4096 : Shape := ⟨1, ![4096]⟩
abbrev S256x64x4096 : Shape := ⟨3, ![256, 64, 4096]⟩
abbrev S1x1x4096 : Shape := ⟨3, ![1, 1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S256x64x1024, .f32⟩
  | .hbm, ⟨1, _⟩ => ⟨S4096x1024, .f32⟩
  | .hbm, ⟨2, _⟩ => ⟨S4096, .f32⟩
  | .hbm, ⟨3, _⟩ => ⟨S256x64x4096, .f32⟩
  | .hbm, ⟨4, _⟩ => ⟨S1x1x4096, .f32⟩
  | .hbm, ⟨5, _⟩ => ⟨S256x64x4096, .f32⟩
  | .hbm, ⟨6, _⟩ => ⟨S256x64x4096, .f32⟩
  | _, _ => ⟨S256x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S256x64x4096_0_1_2 : S1x1x4096.BroadcastsInDim S256x64x4096 (![0, 1, 2] : Fin 3 → Fin S256x64x4096.rank)
  dot_S256x64x1024_S4096x1024_S256x64x4096_2_1_01_0_n_n_wf : DotDims.WF S256x64x1024 S4096x1024 S256x64x4096 [2] [1] [0, 1] [0] [] []

variable [Facts₀]

def dot_S256x64x1024_S4096x1024_S256x64x4096_2_1_01_0_n_n : DotDims S256x64x1024 S4096x1024 S256x64x4096 where
  lhsContracting := [2]
  rhsContracting := [1]
  lhsNonContracting := [0, 1]
  rhsNonContracting := [0]
  lhsBatch := []
  rhsBatch := []
  wf := dot_S256x64x1024_S4096x1024_S256x64x4096_2_1_01_0_n_n_wf

class Facts : Prop extends Facts₀ where

variable [Facts]
-- ==== Proof.Affine.lean ====
/-
  The affine map both programs compute, on the extended reals, written index by index.

  On the grouped layout an input is x[s, b, k] (256 × 64 × 1024), a weight row W[o, k] (4096 × 1024) and a bias b[o];
  the result is  out[s, b, o] = (Σ k, x[s, b, k] · W[o, k]) + b[o].
  On the flat layout the first two axes are one row axis r = s · 64 + b (16384 rows), and
  out2[r, o] = (Σ k, x2[r, k] · W[o, k]) + b[o].
  The two are the same numbers: row-major flattening sends (s, b, k) to (s · 64 + b, k) and back, so reading the flat
  result at row s · 64 + b gives the grouped result at (s, b). No law of arithmetic is used, only this renaming of rows.
-/
import Idealize.ShloMosaic.PureOps.Ideal
import Idealize.ShloMosaic.Lib.ValueIdx
import Idealize.ShloMosaic.Lib.Pipeline.Value

noncomputable section

namespace Cert.Affine

open Idealize.ShloMosaic Idealize.ShloMosaic.ValueIdx

/-- The grouped result: at (s, b, o), the row (s, b) of `x` against row `o` of `w`, plus the bias at `o`. -/
def grouped (x : FVec Ideal ⟨3, ![256, 64, 1024]⟩ .f32) (w : FVec Ideal ⟨2, ![4096, 1024]⟩ .f32)
    (bias : FVec Ideal ⟨1, ![4096]⟩ .f32) : FVec Ideal ⟨3, ![256, 64, 4096]⟩ .f32 :=
  fun i => (∑ k : Fin 1024, x (ix3 (i 0) (i 1) k) * w (ix2 (i 2) k)) + bias (ix1 (i 2))

/-- The flat result: at (r, o), row `r` of `x2` against row `o` of `w`, plus the bias at `o`. -/
def flat (x2 : FVec Ideal ⟨2, ![16384, 1024]⟩ .f32) (w : FVec Ideal ⟨2, ![4096, 1024]⟩ .f32)
    (bias : FVec Ideal ⟨1, ![4096]⟩ .f32) : FVec Ideal ⟨2, ![16384, 4096]⟩ .f32 :=
  fun j => (∑ k : Fin 1024, x2 (ix2 (j 0) k) * w (ix2 (j 1) k)) + bias (ix1 (j 1))

/-- The flat row that the pair (s, b) names. -/
def row (s : Fin 256) (b : Fin 64) : Fin 16384 := ⟨s.val * 64 + b.val, by have := s.isLt; have := b.isLt; omega⟩

/-- Flattening the two leading axes of a grouped array, read at row s · 64 + b and column k, is the entry (s, b, k). -/
theorem flatten_apply {n : Nat} {α : Type} (x : (⟨3, ![256, 64, n]⟩ : Shape).Idx → α)
    (h : (⟨3, ![256, 64, n]⟩ : Shape).ShapeCasts ⟨2, ![16384, n]⟩) (s : Fin 256) (b : Fin 64) (k : Fin n) :
    shapeCast ⟨2, ![16384, n]⟩ x h (ix2 (row s b) k) = x (ix3 s b k) :=
  shapeCast_apply x h _ _ (by
    rw [Shape.rowMajor_val_three, Shape.rowMajor_val_two]
    rfl)

/-- Regrouping the row axis of a flat array into (s, b), read at (s, b, o), is the entry at row s · 64 + b. -/
theorem regroup_apply {n : Nat} {α : Type} (y : (⟨2, ![16384, n]⟩ : Shape).Idx → α)
    (h : (⟨2, ![16384, n]⟩ : Shape).ShapeCasts ⟨3, ![256, 64, n]⟩) (s : Fin 256) (b : Fin 64) (o : Fin n) :
    shapeCast ⟨3, ![256, 64, n]⟩ y h (ix3 s b o) = y (ix2 (row s b) o) :=
  shapeCast_apply y h _ _ (by
    rw [Shape.rowMajor_val_three, Shape.rowMajor_val_two]
    rfl)

/-- The flat result of the flattened input, regrouped, is the grouped result. -/
theorem regroup_flat (x : FVec Ideal ⟨3, ![256, 64, 1024]⟩ .f32) (w : FVec Ideal ⟨2, ![4096, 1024]⟩ .f32)
    (bias : FVec Ideal ⟨1, ![4096]⟩ .f32)
    (h1 : (⟨3, ![256, 64, 1024]⟩ : Shape).ShapeCasts ⟨2, ![16384, 1024]⟩)
    (h2 : (⟨2, ![16384, 4096]⟩ : Shape).ShapeCasts ⟨3, ![256, 64, 4096]⟩) :
    shapeCast ⟨3, ![256, 64, 4096]⟩ (flat (shapeCast ⟨2, ![16384, 1024]⟩ x h1) w bias) h2 = grouped x w bias := by
  funext i
  obtain ⟨s, b, o, rfl⟩ : ∃ (s : Fin 256) (b : Fin 64) (o : Fin 4096), i = ix3 s b o := ⟨i 0, i 1, i 2, eq_ix3 i⟩
  rw [regroup_apply]
  show (∑ k : Fin 1024, shapeCast ⟨2, ![16384, 1024]⟩ x h1 (ix2 (row s b) k) * w (ix2 o k)) + bias (ix1 o)
    = (∑ k : Fin 1024, x (ix3 s b k) * w (ix2 o k)) + bias (ix1 o)
  simp only [flatten_apply]

end Cert.Affine

end
-- ==== Proof.RefAffine.lean ====
/-
  The reference's result, read index by index, is the grouped affine map: its `dot_general` contracts the last axis of
  x[s, b, ·] against the last axis of W[o, ·], its two broadcasts carry the bias b[o] to every (s, b), and the sum of the two is
  (Σ k, x[s, b, k] · W[o, k]) + b[o].
-/
import proofs.«150537_j41162966565492_1_alg».proof.Proof.Gen.ReferenceIdeal.Read
import proofs.«150537_j41162966565492_1_alg».proof.Proof.Affine

noncomputable section

namespace Cert.ReferenceIdeal.RefAffine

open Cert.ReferenceIdeal Idealize.ShloMosaic Idealize.ShloMosaic.ValueIdx

/-- The left operand's index of the contraction at (i, k) is (s, b, k). -/
theorem lidx_eq (i : S256x64x4096.Idx) (k : Fin 1024) : Read.lidx_main_v0 i k = ix3 (i 0) (i 1) k :=
  funext fun a => by match a with | ⟨0, _⟩ => rfl | ⟨1, _⟩ => rfl | ⟨2, _⟩ => rfl

/-- The right operand's index of the contraction at (i, k) is (o, k). -/
theorem ridx_eq (i : S256x64x4096.Idx) (k : Fin 1024) : Read.ridx_main_v0 i k = ix2 (i 2) k :=
  funext fun a => by match a with | ⟨0, _⟩ => rfl | ⟨1, _⟩ => rfl

/-- Through both broadcasts the bias is read at the output column. -/
theorem bidx_eq (i : S256x64x4096.Idx) : Read.idx_main_v1 (Read.idx_main_v2 i) = ix1 (i 2) :=
  funext fun a => by match a with | ⟨0, _⟩ => rfl

/-- The reference's last stage is the grouped affine map of its three arguments. -/
theorem val_eq (x : FVec Ideal S256x64x1024 .f32) (w : FVec Ideal S4096x1024 .f32) (bias : FVec Ideal S4096 .f32) :
    Read.val_main_v3 (F := Ideal) x w bias = Cert.Affine.grouped x w bias := by
  funext i
  rw [Read.val_main_v3_apply, Read.val_main_v0_apply, Read.val_main_v2_apply, Read.val_main_v1_apply]
  simp only [lidx_eq, ridx_eq, bidx_eq, Ideal.addf_def]
  rfl

end Cert.ReferenceIdeal.RefAffine

end
-- ==== Proof.LibLeadSumDotT.lean ====
/-
  Two readings at an index, over the extended reals, for kernels that sum a grouped operand over its LEADING axis and
  multiply a row block against the ROWS of a weight block (`x @ W.T`):

  * `sumLead3_apply` / `sumLead2_apply`: a `vector.multi_reduction <add>` over axis 0 of a rank-3 (rank-2) vector,
    read at `(r, k)` (at `q`), is the sum over `g` of the entries `(g, r, k)` (`(g, q)`);
  * `matmulT_apply`: a `tpu.matmul` into the zero accumulator whose dimension numbers contract axis 1 of BOTH operands
    (`DotDims.transposedRhs M K N`: lhs [M, K], rhs [N, K], out [M, N]), read at `(p, q)`, is
    `Σ k : Fin K, lhs (p, k) * rhs (q, k)`. A printed record `dot_S<M>x<K>_S<N>x<K>_S<M>x<N>_1_1_0_0_n_n` unifies with
    `DotDims.transposedRhs M K N` by unfolding, so the lemma applies to the printed payload by `exact` / `refine … .trans`.
-/
import Idealize.ShloMosaic.PureOps.Ideal.Laws
import Idealize.ShloMosaic.Lib.ValueIdx

noncomputable section

namespace Cert.Lib

open Idealize.ShloMosaic Idealize.ShloMosaic.ValueIdx

/-- The sum over the leading axis of a rank-3 vector, read at `(r, k)`: the sum over `g` of the entries `(g, r, k)`. -/
theorem sumLead3_apply {n0 n1 n2 : Nat} (src : FVec Ideal ⟨3, ![n0, n1, n2]⟩ .f32)
    (h : (⟨3, ![n0, n1, n2]⟩ : Shape).Reduces [0] ⟨2, ![n1, n2]⟩) (hφ : FKind.Formats .f32)
    (hacc : (0x00000000#32 : BitVec 32) = FKind.add.neutral .f32 hφ) (r : Fin n1) (k : Fin n2) :
    multiReduction .add [0] ⟨2, ![n1, n2]⟩ src 0x00000000#32 h hφ hacc (ix2 r k) = ∑ g : Fin n0, src (ix3 g r k) := by
  refine (Ideal.multiReduction_add_single src _ h hφ hacc (ix2 r k)).trans ?_
  refine Finset.sum_congr rfl fun g _ => congrArg src ?_
  funext a
  match a with
  | ⟨0, _⟩ => rfl
  | ⟨1, _⟩ => rfl
  | ⟨2, _⟩ => rfl

/-- The sum over the leading axis of a rank-2 vector, read at `q`: the sum over `g` of the entries `(g, q)`. -/
theorem sumLead2_apply {n0 n1 : Nat} (src : FVec Ideal ⟨2, ![n0, n1]⟩ .f32)
    (h : (⟨2, ![n0, n1]⟩ : Shape).Reduces [0] ⟨1, ![n1]⟩) (hφ : FKind.Formats .f32)
    (hacc : (0x00000000#32 : BitVec 32) = FKind.add.neutral .f32 hφ) (q : Fin n1) :
    multiReduction .add [0] ⟨1, ![n1]⟩ src 0x00000000#32 h hφ hacc (ix1 q) = ∑ g : Fin n0, src (ix2 g q) := by
  refine (Ideal.multiReduction_add_single src _ h hφ hacc (ix1 q)).trans ?_
  refine Finset.sum_congr rfl fun g _ => congrArg src ?_
  funext a
  match a with
  | ⟨0, _⟩ => rfl
  | ⟨1, _⟩ => rfl

/-! ## A product that contracts the second axis of both operands -/

/-- The left operand's row coordinate is the output's row. -/
theorem lhsT_0 {M K N : Nat} (j : (⟨2, ![M, N]⟩ : Shape).Idx) (k : (DotDims.transposedRhs M K N).contr.Idx) :
    ((DotDims.transposedRhs M K N).lhsIdx j k 0).val = (j 0).val := rfl
/-- The left operand's column coordinate is the contraction coordinate. -/
theorem lhsT_1 {M K N : Nat} (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k
/-- The right operand's row coordinate is the output's column. -/
theorem rhsT_0 {M K N : Nat} (j : (⟨2, ![M, N]⟩ : Shape).Idx) (k : (DotDims.transposedRhs M K N).contr.Idx) :
    ((DotDims.transposedRhs M K N).rhsIdx j k 0).val = (j 1).val := rfl
/-- The right operand's column coordinate is the contraction coordinate. -/
theorem rhsT_1 {M K N : Nat} (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- Into the zero accumulator, such a product read at `(p, q)` is the sum over `k` of `lhs (p, k) * rhs (q, k)`. -/
theorem matmulT_apply {M K N : Nat} {φ₁ φ₂ : FTy} (lhs : FVec Ideal ⟨2, ![M, K]⟩ φ₁) (rhs : FVec Ideal ⟨2, ![N, K]⟩ φ₂)
    (p : Fin M) (q : Fin N) :
    matmul (DotDims.transposedRhs M K N) none lhs rhs (constant (F := Ideal) ⟨2, ![M, N]⟩ .f32 0x00000000#32) (ix2 p q)
      = ∑ k : Fin K, lhs (ix2 p k) * rhs (ix2 q k) := by
  refine (Ideal.matmul_constant_zero_apply (DotDims.transposedRhs M K N) none lhs rhs (ix2 p q)).trans ?_
  rw [← Equiv.sum_comp (contrEquiv1 (DotDims.transposedRhs M K N) K rfl rfl).symm]
  refine Finset.sum_congr rfl fun k _ => ?_
  have hk := contrEquiv1_symm_val (DotDims.transposedRhs M K N) K rfl rfl k
  have hl : (DotDims.transposedRhs M K N).lhsIdx (ix2 p q) ((contrEquiv1 (DotDims.transposedRhs M K N) K rfl rfl).symm k) = ix2 p k := by
    funext a
    match a with
    | ⟨0, _⟩ => exact Fin.ext (lhsT_0 _ _)
    | ⟨1, _⟩ => exact Fin.ext ((lhsT_1 _ _).trans hk)
  have hr : (DotDims.transposedRhs M K N).rhsIdx (ix2 p q) ((contrEquiv1 (DotDims.transposedRhs M K N) K rfl rfl).symm k) = ix2 q k := by
    funext a
    match a with
    | ⟨0, _⟩ => exact Fin.ext (rhsT_0 _ _)
    | ⟨1, _⟩ => exact Fin.ext ((rhsT_1 _ _).trans hk)
  rw [hl, hr]

end Cert.Lib

end
-- ==== Proof.Block.lean ====
/-
  What one grid point stores, entry by entry. The body multiplies its 2048 × 1024 block of the flat input against the
  ROWS of its 1024 × 1024 block of the weight (both operands are contracted along their second axis), starting from
  zero, and adds its 1024 bias entries to every row:
      stored[p, q] = (Σ k, xblk[p, k] · wblk[q, k]) + bblk[q].
  The casts of the two operands to their own shapes are the identity; the bias is viewed as one row and that row is
  repeated over the 2048 rows.
-/
import proofs.«150537_j41162966565492_1_alg».proof.Proof.Gen.KernelIdeal.Skeleton
import proofs.«150537_j41162966565492_1_alg».proof.Proof.LibLeadSumDotT
import Idealize.ShloMosaic.Lib.Pipeline.Value
import Idealize.ShloMosaic.Lib.ValueLayout
import Idealize.ShloMosaic.Lib.ValueIdx

noncomputable section

namespace Cert.KernelIdeal.Block

open Cert.KernelIdeal Cert.KernelIdeal.Gen Idealize.ShloMosaic Idealize.ShloMosaic.ValueIdx

/-- The stored value at (p, q): row `p` of the input block against row `q` of the weight block, plus the bias at `q`. -/
theorem pay_apply (x0 : Vec Ideal S2048x1024 .bf16) (x1 : Vec Ideal S1024x1024 .bf16) (x2 : Vec Ideal S1024 .f32)
    (p : Fin 2048) (q : Fin 1024) :
    k0_pay1 (F := Ideal) x0 x1 x2 (ix2 p q) = (∑ k : Fin 1024, x0 (ix2 p k) * x1 (ix2 q k)) + x2 (ix1 q) := by
  unfold k0_pay1
  rw [addf_apply, shapeCast_self, shapeCast_self]
  refine congrArg₂ (· + ·) ?_ ?_
  · exact Cert.Lib.matmulT_apply (M := 2048) (K := 1024) (N := 1024) x0 x1 p q
  · exact (broadcastTo_1b_ab_apply _ _ p q).trans (shapeCast_a_1a_apply x2 _ 0 q)

end Cert.KernelIdeal.Block

end
-- ==== Proof.Result.lean ====
/-
  What the kernel's program leaves in its result, as one function of its three arguments.

  Before the grid runs, the input is flattened to 16384 rows (row s · 64 + b is the pair (s, b)) and both matrix operands are
  narrowed, which changes no value over the extended reals. Grid point (i, j) of the 8 × 4 grid reads rows
  [2048 i, 2048 i + 2048) of the flat input, rows [1024 j, 1024 j + 1024) of the weight and the same range of the bias, and writes
  the 2048 × 1024 block at (i, j) of a 16384 × 4096 array. Entry by entry that block is the flat affine map read through the
  block: the block's row p is array row 2048 i + p, its column q is array column 1024 j + q, and the operands' rows are offset
  the same way. The 32 blocks tile the array, so the whole array is the flat affine map; the last host line regroups its rows
  into (s, b), which gives the grouped affine map of the arguments.
-/
import proofs.«150537_j41162966565492_1_alg».proof.Proof.Gen.KernelIdeal.Frame
import proofs.«150537_j41162966565492_1_alg».proof.Proof.Block
import proofs.«150537_j41162966565492_1_alg».proof.Proof.Affine
import Idealize.ShloMosaic.Lib.Pipeline.Value
import Idealize.ShloMosaic.Lib.StableHlo.Run

set_option maxRecDepth 16384

noncomputable section

namespace Cert.KernelIdeal.Result

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)
open Facts₀ Facts

variable (m : (ℓ : Loc nD τ sig) → Buf (Elt Ideal) ℓ) (ρ : Dev nD → PrngReg)

/-! ## The operands as the grid finds them -/

/-- The flat input the grid reads: the first argument with its two leading axes made one (narrowing changes nothing). -/
theorem flat_input (c : Dev nD) :
    (V m c main_v1 : S16384x1024.Idx → EReal)
      = shapeCast S16384x1024 (m ((c : Thread nD τ).loc main_arg0)) Facts₀.shapeCasts_S256x64x1024_S16384x1024 := by
  show StableHlo.after hostOps0 (fun b => m (c, b)) (Proc.devRef .tc main_v1) = _
  after_results
  rfl

/-- The weight the grid reads is the second argument (narrowing changes nothing). -/
theorem weight (c : Dev nD) : (V m c main_v2 : S4096x1024.Idx → EReal) = m ((c : Thread nD τ).loc main_arg1) := by
  show StableHlo.after hostOps0 (fun b => m (c, b)) (Proc.devRef .tc main_v2) = _
  after_results
  rfl

/-! ## One block -/

theorem origin2 : (![0, 0] : Fin 2 → Nat) = fun _ => 0 := funext fun a => by fin_cases a <;> rfl
theorem origin1 : (![0] : Fin 1 → Nat) = fun _ => 0 := funext fun a => by fin_cases a <;> rfl

/-- How the four windows move over the grid: the input block follows the output's block row, the weight and bias blocks its
    block column, and neither matrix operand is cut along the contracted axis. -/
theorem block_indices : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 1) = win0_3.index t (1 : Fin 2) :=
  (by decide +kernel : ∀ t : Fin grid0.N, _)

/-- Every block position of the 8 × 4 tiling is some grid point's. -/
theorem block_onto : ∀ (q0 : Fin 8) (q1 : Fin 4), ∃ t : Fin cfg0.N, win0_3.index t = ![q0.val, q1.val] :=
  (by decide +kernel : ∀ (q0 : Fin 8) (q1 : Fin 4), ∃ t : Fin grid0.N, win0_3.index t = ![q0.val, q1.val])

/-- What grid point `t` writes back is its block of the flat affine map of the operands as the grid finds them. -/
theorem flushed_eq (c : Dev nD) (t : Fin cfg0.N) :
    (dats m 0 c).flushed 3 t
      = ((cfg0.win 3).blk t).view.read (Elt Ideal) (Cert.Affine.flat (V m c main_v1) (V m c main_v2) (V m c main_arg2)) := by
  show (cfg0.win 3).cut (grid0.coords t) ((dats m 0 c).after 3 t) = _
  rw [after0_3]
  unfold out0_3
  rw [View.canon_unit_zero origin2]
  simp only [View.ld_unit_zero (S := S2048x1024) origin2, View.ld_unit_zero (S := S1024x1024) origin2,
    View.ld_unit_zero (S := S1024) origin1]
  obtain ⟨e0, e1, e2, e3, e4⟩ := block_indices t
  funext j
  obtain ⟨p, q, rfl⟩ : ∃ (p : Fin 2048) (q : Fin 1024), j = ix2 p q := ⟨j 0, j 1, eq_ix2 j⟩
  refine (Cert.KernelIdeal.Block.pay_apply (iblk m c 0 t) (iblk m c 1 t) (iblk m c 2 t) p q).trans ?_
  have h0 : ∀ k : Fin 1024, ((cfg0.win 0).blk t).view.emb (ix2 p k) = ix2 (((cfg0.win 3).blk t).view.emb (ix2 p q) 0) k := fun k => by
    funext a; apply Fin.ext
    match a with
    | ⟨0, _⟩ => show win0_0.index t (0 : Fin 2) * 2048 + 1 * p.val = win0_3.index t (0 : Fin 2) * 2048 + 1 * p.val; omega
    | ⟨1, _⟩ => show win0_0.index t (1 : Fin 2) * 1024 + 1 * k.val = k.val; omega
  have h1 : ∀ k : Fin 1024, ((cfg0.win 1).blk t).view.emb (ix2 q k) = ix2 (((cfg0.win 3).blk t).view.emb (ix2 p q) 1) k := fun k => by
    funext a; apply Fin.ext
    match a with
    | ⟨0, _⟩ => show win0_1.index t (0 : Fin 2) * 1024 + 1 * q.val = win0_3.index t (1 : Fin 2) * 1024 + 1 * q.val; omega
    | ⟨1, _⟩ => show win0_1.index t (1 : Fin 2) * 1024 + 1 * k.val = k.val; omega
  have h2 : ((cfg0.win 2).blk t).view.emb (ix1 q) = ix1 (((cfg0.win 3).blk t).view.emb (ix2 p q) 1) := by
    funext a; apply Fin.ext
    match a with
    | ⟨0, _⟩ => show win0_2.index t (0 : Fin 1) * 1024 + 1 * q.val = win0_3.index t (1 : Fin 2) * 1024 + 1 * q.val; omega
  refine congrArg₂ (· + ·) (Finset.sum_congr rfl fun k _ => congrArg₂ (· * ·) ?_ ?_) ?_
  · exact congrArg (V m c main_v1) (h0 k)
  · exact congrArg (V m c main_v2) (h1 k)
  · exact congrArg (V m c main_arg2) h2

/-! ## The whole array -/

/-- An index of the array lies in grid point `t`'s block iff each coordinate lies in that block's range. -/
theorem mem_blk (t : Fin cfg0.N) (i : S16384x4096.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v3).slice (win0_3.rect t)).set ↔ _
  rw [View.set_slice_whole, Rect.mem_set_unit]
  exact Iff.rfl

/-- The blocks tile the array: row r lies in block row r / 2048, column o in block column o / 1024. -/
theorem cover (i : S16384x4096.Idx) : ∃ t : Fin cfg0.N, (cfg0.win 3).flush t = true ∧ i ∈ ((cfg0.win 3).blk t).view.set := by
  have hi0 : (i 0).val < 16384 := (i 0).isLt
  have hi1 : (i 1).val < 4096 := (i 1).isLt
  obtain ⟨t, ht⟩ := block_onto ⟨(i 0).val / 2048, by omega⟩ ⟨(i 1).val / 1024, by omega⟩
  have q0 : win0_3.index t (0 : Fin 2) = (i 0).val / 2048 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 1024 ≤ (i 1).val ∧ (i 1).val < win0_3.index t (1 : Fin 2) * 1024 + 1024; omega

/-- After the grid the 16384 × 4096 array is the flat affine map of the operands as the grid found them. -/
theorem array_eq (c : Dev nD) :
    (dats m 0 c).arrAt 3 cfg0.N = Cert.Affine.flat (V m c main_v1) (V m c main_v2) (V m c main_arg2) :=
  (dats m 0 c).arrAt_eq_of_cover 3 _ (fun t _ => flushed_eq m c t) cover

/-! ## The result -/

/-- The program's result: the array's rows regrouped into (s, b), which is the grouped affine map of the three arguments. -/
theorem result_eq (c : Dev nD) :
    Pipeline.afterTail₀ cfgs (dats m) 0 (V0 m) [hostOps1] c main_v4
      = Cert.Affine.grouped (m ((c : Thread nD τ).loc main_arg0)) (m ((c : Thread nD τ).loc main_arg1))
          (m ((c : Thread nD τ).loc main_arg2)) := by
  unfold Pipeline.afterTail₀
  show StableHlo.after hostOps1 _ (Proc.devRef .tc main_v4) = _
  after_results
  show shapeCast S256x64x4096 (Pipeline.withArrays spec0 c (V0 m c) (fun w => (dats m 0 c).arrAt w cfg0.N)
      (Proc.devRef .tc (Pipeline.arrRef spec0 3))) Facts₀.shapeCasts_S16384x4096_S256x64x4096 = _
  rw [Pipeline.withArrays_arr spec0 launch0.win.arr_inj c _ _ 3, array_eq, flat_input, weight, V_main_arg2]
  exact Cert.Affine.regroup_flat _ _ _ _ _

/-- Every weakly fair execution of the program ends with its result at the grouped affine map of the arguments and the
    arguments as they were. -/
theorem run : θ_run defs (onTc (τ := τ) (main (F := Ideal))) ⟨m, fun _ => 0, ρ⟩ fun r => ∀ c : Dev nD,
      r.2.mem ((c.tc : Thread nD τ).loc main_v4)
        = Cert.Affine.grouped (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.KernelIdeal.Result

end
-- ==== Proof.lean ====
/-
  The kernel and the reference compute one affine map. For an input x[s, b, k] (256 × 64 × 1024), weight rows W[o, k]
  (4096 × 1024) and a bias b[o], both end with
      out[s, b, o] = (Σ k, x[s, b, k] · W[o, k]) + b[o]
  over the extended reals. The reference contracts the last axes directly and broadcasts the bias. The kernel first makes the
  pairs (s, b) one row axis, r = s · 64 + b, narrows the two matrix operands (no change of value here), computes the
  16384 × 4096 product block by block on an 8 × 4 grid, each block starting from zero and adding its bias entries, and
  regroups the rows at the end. Renaming rows is the only thing that separates the two sides, so no finiteness of the
  inputs is needed: the precondition is never opened.

  Each program's run ends with its arguments unchanged; the kernel's idealization rewrote no operation, so there is nothing
  to preserve beyond the text itself.
-/
import proofs.«150537_j41162966565492_1_alg».proof.Defs
import proofs.«150537_j41162966565492_1_alg».proof.Proof.Gen.Kernel
import proofs.«150537_j41162966565492_1_alg».proof.Proof.Gen.Kernel.Skeleton
import proofs.«150537_j41162966565492_1_alg».proof.Proof.Gen.Kernel.Launch
import proofs.«150537_j41162966565492_1_alg».proof.Proof.Gen.Kernel.Points
import proofs.«150537_j41162966565492_1_alg».proof.Proof.Gen.Kernel.Frame
import proofs.«150537_j41162966565492_1_alg».proof.Proof.Gen.KernelIdeal
import proofs.«150537_j41162966565492_1_alg».proof.Proof.Gen.KernelIdeal.Skeleton
import proofs.«150537_j41162966565492_1_alg».proof.Proof.Gen.KernelIdeal.Launch
import proofs.«150537_j41162966565492_1_alg».proof.Proof.Gen.KernelIdeal.Points
import proofs.«150537_j41162966565492_1_alg».proof.Proof.Gen.KernelIdeal.Frame
import proofs.«150537_j41162966565492_1_alg».proof.Proof.Gen.ReferenceIdeal
import proofs.«150537_j41162966565492_1_alg».proof.Proof.Gen.Pre_finite_inputs
import proofs.«150537_j41162966565492_1_alg».proof.Proof.Gen.ReferenceIdeal.Run
import proofs.«150537_j41162966565492_1_alg».proof.Proof.Gen.ReferenceIdeal.Read
import proofs.«150537_j41162966565492_1_alg».proof.Proof.RefAffine
import proofs.«150537_j41162966565492_1_alg».proof.Proof.Result
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of four host operations: it runs, and its arguments end as they were. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories that agree on the three arguments both programs end at the grouped affine map of those arguments. -/
theorem algebraic : Cert.algebraic_KernelIdeal_ReferenceIdeal := by
  intro m ρ m' ρ' _ hagree
  refine ⟨fun c => Cert.Affine.grouped (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefAffine.val_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
